-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S65536x2048 : Shape := ⟨2, ![65536, 2048]⟩
abbrev S256 : Shape := ⟨1, ![256]⟩
abbrev S65536 : Shape := ⟨1, ![65536]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_

variable [Facts]

def fn {F : FTy → Type} [FloatOps F] (main_arg0 : FVec F S256x2048 .f32) (main_arg1 : FVec F S65536x2048 .f32) (main_arg2 : IVec S256 32) (main_arg3 : IVec S65536 32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S65536x2048 .f32 := Host.absf main_arg1
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  main_v8
-- ==== Kernel.lean ====
abbrev S256x2048 : Shape := ⟨2, ![256, 2048]⟩
abbrev S65536x2048 : Shape := ⟨2, ![65536, 2048]⟩
abbrev S256 : Shape := ⟨1, ![256]⟩
abbrev S65536 : Shape := ⟨1, ![65536]⟩
abbrev S256x65536 : Shape := ⟨2, ![256, 65536]⟩
abbrev S2048x2048 : Shape := ⟨2, ![2048, 2048]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S65536x2048, .f32⟩
  | .hbm, ⟨2, _⟩ => ⟨S256, .i32⟩
  | .hbm, ⟨3, _⟩ => ⟨S65536, .i32⟩
  | .hbm, ⟨4, _⟩ => ⟨S256x2048, .bf16⟩
  | .hbm, ⟨5, _⟩ => ⟨S256x65536, .f32⟩
  | .local _ .vmem, ⟨0, _⟩ => ⟨S256x2048, .bf16⟩
  | .local _ .vmem, ⟨1, _⟩ => ⟨S2048x2048, .f32⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .bf16 = 32 ∨ (Rect.block (s := S256x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S65536x2048.size a
  hwx0_1 : ∀ i : grid0.Coords, EltTy.bits .f32 = 32 ∨ (Rect.block (s := S65536x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x65536.size a
  hwx0_2 : ∀ i : grid0.Coords, EltTy.bits .f32 = 32 ∨ (Rect.block (s := S256x65536) S256x2048.size (cc0_transform_2 i) (hinb0_2 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x2048 : Shape := ⟨2, ![256, 2048]⟩
abbrev S65536x2048 : Shape := ⟨2, ![65536, 2048]⟩
abbrev S256 : Shape := ⟨1, ![256]⟩
abbrev S65536 : Shape := ⟨1, ![65536]⟩
abbrev S256x65536 : Shape := ⟨2, ![256, 65536]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S65536x2048, .f32⟩
  | .hbm, ⟨2, _⟩ => ⟨S256, .i32⟩
  | .hbm, ⟨3, _⟩ => ⟨S65536, .i32⟩
  | .hbm, ⟨4, _⟩ => ⟨S256x65536, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩

abbrev nD : Nat := 1
abbrev τ : Topo := Topo.v7x

variable {F : FTy → Type} [FloatOps F]

class Facts₀ : Prop where
  dot_S256x2048_S65536x2048_S256x65536_1_1_0_0_n_n_wf : DotDims.WF S256x2048 S65536x2048 S256x65536 [1] [1] [0] [0] [] []

variable [Facts₀]

def dot_S256x2048_S65536x2048_S256x65536_1_1_0_0_n_n : DotDims S256x2048 S65536x2048 S256x65536 where
  lhsContracting := [1]
  rhsContracting := [1]
  lhsNonContracting := [0]
  rhsNonContracting := [0]
  lhsBatch := []
  rhsBatch := []
  wf := dot_S256x2048_S65536x2048_S256x65536_1_1_0_0_n_n_wf

class Facts : Prop extends Facts₀ where

variable [Facts]
-- ==== Proof.RowDots.lean ====
/-
  The matrix of inner products of two families of rows, over the extended reals.

  For `x` with 256 rows and `f` with 65536 rows, all of length 2048, entry `(b, n)` of `rowDots x f`
  is `Σ_k x[b, k] · f[n, k]`: row `b` of `x` against row `n` of `f`. It is what `x · fᵀ` means entry
  by entry. A finite sum in the extended reals does not depend on the order or the grouping of its
  terms (they form a commutative monoid under addition), so nothing here asks the entries to be finite.
-/
import Idealize.ShloMosaic.PureOps.Ideal
import Idealize.ShloMosaic.Lib.ValueIdx

noncomputable section

namespace Cert.RowDots

open Idealize.ShloMosaic Idealize.ShloMosaic.ValueIdx

/-- Entry `(b, n)`: the inner product of row `b` of `x` with row `n` of `f`. -/
def rowDots (x : (⟨2, ![256, 2048]⟩ : Shape).Idx → EReal) (f : (⟨2, ![65536, 2048]⟩ : Shape).Idx → EReal) :
    (⟨2, ![256, 65536]⟩ : Shape).Idx → EReal :=
  fun i => ∑ k : Fin 2048, x (ix2 (i 0) k) * f (ix2 (i 1) k)

/-- The same entry named by its two coordinates. -/
theorem rowDots_ix2 (x : (⟨2, ![256, 2048]⟩ : Shape).Idx → EReal) (f : (⟨2, ![65536, 2048]⟩ : Shape).Idx → EReal)
    (b : Fin 256) (n : Fin 65536) :
    rowDots x f (ix2 b n) = ∑ k : Fin 2048, x (ix2 b k) * f (ix2 n k) := rfl

end Cert.RowDots

end
-- ==== Proof.BlockProduct.lean ====
/-
  One grid step's product, entry by entry.

  A grid step holds all 256 rows of the (narrowed) left matrix and a block of 2048 rows of the right
  matrix, every row of length 2048, and multiplies them contracting the row length on both sides into
  a zero accumulator. Read at the ideal values, entry `(p, q)` of the result is
  `Σ_k x0[p, k] · x1[q, k]`: the accumulator's zero drops out, the contraction index is its single
  coordinate, and the left operand is read at `(p, k)`, the right at `(q, k)`.
-/
import proofs.«427703_j63745904607634_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's row coordinate is the output's row coordinate. -/
theorem lhs_axis0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
/-- The left operand's column coordinate is the contraction coordinate. -/
theorem lhs_axis1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
/-- The right operand's row coordinate is the output's column coordinate. -/
theorem rhs_axis0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
/-- The right operand's column coordinate is the contraction coordinate. -/
theorem rhs_axis1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- Entry `(p, q)` of a grid step's product is the inner product of row `p` of the left block with row `q`
    of the right block. -/
theorem pay_apply (x0 : Vec Ideal S256x2048 .bf16) (x1 : Vec Ideal S2048x2048 .f32) (p : Fin 256) (q : Fin 2048) :
    k0_pay1 (F := Ideal) x0 x1 (ix2 p q) = ∑ k : Fin 2048, x0 (ix2 p k) * x1 (ix2 q k) := by
  unfold k0_pay1
  simp only [matmul]
  rw [shapeCast_self, Ideal.matmul_constant_zero_apply,
    ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p q) ((contrEquiv1 dot_S256x2048_S2048x2048_S256x2048_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S256x2048_S2048x2048_S256x2048_1_1_0_0_n_n.rhsIdx (ix2 p q) ((contrEquiv1 dot_S256x2048_S2048x2048_S256x2048_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

end Cert.KernelIdeal.BlockProduct

end
-- ==== Proof.Whole.lean ====
/-
  The kernel's result array is the matrix of inner products of its two argument matrices.

  The grid has 32 steps. Before it, the left argument is narrowed to a shorter float format, which at
  the ideal values changes nothing: the narrowed matrix holds the left argument's values. Step `t`
  holds the whole narrowed left matrix (block `(0, 0)`) and rows `2048·t … 2048·t + 2047` of the right
  matrix (block `(t, 0)`), and writes back columns `2048·t … 2048·t + 2047` of the result (block
  `(0, t)`). Entry `(p, q)` of what it writes is the inner product of row `p` of the left block with
  row `q` of the right block, that is, entry `(p, 2048·t + q)` of `rowDots` of the two arguments: so
  each step writes back its block of ONE whole-array function. Column `n` of the result lies in the
  block of step `n / 2048`, so the 32 blocks cover the array, which therefore ends holding `rowDots`.
-/
import proofs.«427703_j63745904607634_3_alg».proof.Proof.Gen.KernelIdeal.Value
import proofs.«427703_j63745904607634_3_alg».proof.Proof.BlockProduct
import proofs.«427703_j63745904607634_3_alg».proof.Proof.RowDots
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.RowDots
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The narrowed left matrix, as the grid finds it, holds the left argument's values: narrowing a float
    format is the identity on ideal values. -/
theorem narrowed (c : Dev nD) :
    (V m c main_v0 : S256x2048.Idx → EReal) = (m ((c : Thread nD τ).loc main_arg0) : S256x2048.Idx → EReal) := by
  have e : (V m c main_v0 : S256x2048.Idx → EReal)
      = truncf (F := Ideal) .bf16 (m ((c : Thread nD τ).loc main_arg0) : FVec Ideal S256x2048 .f32) bitsLt_bf16_f32 := by
    dsimp only [Gen.V, Gen.hostOps0]; after_results
  rw [e]; rfl

/-- Which blocks step `t` touches: block `(0, 0)` of the left matrix, block `(t, 0)` of the right matrix,
    block `(0, t)` of the result. Decided over the 32 steps. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- One step over plain arrays: if the left block is all of `A` and the right block is rows
    `2048·s …` of `B`, then entry `(p, q)` of the step's product is entry `(p, 2048·s + q)` of `rowDots A B`. -/
theorem step_entry (A : S256x2048.Idx → EReal) (B : S65536x2048.Idx → EReal)
    (x0 : Vec Ideal S256x2048 .bf16) (x1 : Vec Ideal S2048x2048 .f32) (s : Nat) (hs : s < 32)
    (h0 : ∀ (p : Fin 256) (k : Fin 2048), x0 (ix2 p k) = A (ix2 p k))
    (h1 : ∀ (q : Fin 2048) (k : Fin 2048), x1 (ix2 q k) = B (ix2 (⟨s * 2048 + q.val, by have := q.isLt; omega⟩ : Fin 65536) k))
    (p : Fin 256) (q : Fin 2048) :
    k0_pay1 (F := Ideal) x0 x1 (ix2 p q)
      = rowDots A B (ix2 p (⟨s * 2048 + q.val, by have := q.isLt; omega⟩ : Fin 65536)) := by
  rw [BlockProduct.pay_apply, rowDots_ix2]
  exact Finset.sum_congr rfl fun k _ => by rw [h0 p k, h1 q k]

/-- What step `t` writes back is block `(0, t)` of `rowDots` of the two argument matrices. -/
theorem flushed_eq (c : Dev nD) (t : Fin cfg0.N) :
    (dats m 0 c).flushed 2 t = ((cfg0.win 2).blk t).view.read (Elt Ideal)
      (rowDots (m ((c : Thread nD τ).loc main_arg0)) (m ((c : Thread nD τ).loc main_arg1))) := by
  rw [Value.flushed2]
  unfold out0_2
  rw [View.canon_unit_zero origin]
  simp only [View.ld_unit_zero (S := S256x2048) origin, View.ld_unit_zero (S := S2048x2048) origin]
  obtain ⟨e00, e01, e10, e11, e20, e21⟩ := idx_facts t
  have ht : t.val < 32 := lt_of_lt_of_eq t.isLt (N_0 : cfg0.N = 32)
  funext j
  obtain ⟨p, q, rfl⟩ : ∃ (p : Fin 256) (q : Fin 2048), j = ix2 p q := ⟨j 0, j 1, eq_ix2 j⟩
  show k0_pay1 (F := Ideal) (iblk m c 0 t) (iblk m c 1 t) (ix2 p q)
    = rowDots (m ((c : Thread nD τ).loc main_arg0)) (m ((c : Thread nD τ).loc main_arg1)) (((cfg0.win 2).blk t).view.emb (ix2 p q))
  refine (step_entry (m ((c : Thread nD τ).loc main_arg0)) (m ((c : Thread nD τ).loc main_arg1)) (iblk m c 0 t) (iblk m c 1 t) t.val ht ?_ ?_ p q).trans ?_
  · -- the left block at (p, k) is the left argument at (0·256 + p, 0·2048 + k)
    intro p k
    show V m c main_v0 (((cfg0.win 0).blk t).view.emb (ix2 p k)) = _
    refine (congrFun (narrowed m c) _).trans (congrArg _ (funext fun a => Fin.ext ?_))
    match a with
    | ⟨0, _⟩ => show win0_0.index t (0 : Fin 2) * 256 + 1 * p.val = p.val; omega
    | ⟨1, _⟩ => show win0_0.index t (1 : Fin 2) * 2048 + 1 * k.val = k.val; omega
  · -- the right block at (q, k) is the right argument at (t·2048 + q, 0·2048 + k)
    intro q k
    show V m c main_arg1 (((cfg0.win 1).blk t).view.emb (ix2 q k)) = _
    refine (congrFun (V_main_arg1 m c) _).trans (congrArg _ (funext fun a => Fin.ext ?_))
    match a with
    | ⟨0, _⟩ => show win0_1.index t (0 : Fin 2) * 2048 + 1 * q.val = t.val * 2048 + q.val; omega
    | ⟨1, _⟩ => show win0_1.index t (1 : Fin 2) * 2048 + 1 * k.val = k.val; omega
  · -- entry (p, q) of the result's block is the result at (0·256 + p, t·2048 + q)
    refine congrArg _ (funext fun a => Fin.ext ?_)
    match a with
    | ⟨0, _⟩ => show p.val = win0_2.index t (0 : Fin 2) * 256 + 1 * p.val; omega
    | ⟨1, _⟩ => show t.val * 2048 + q.val = win0_2.index t (1 : Fin 2) * 2048 + 1 * q.val; omega

/-- An entry of the result lies in step `t`'s block iff each coordinate is in the block's range on its axis. -/
theorem mem_blk (t : Fin cfg0.N) (i : S256x65536.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1).slice (win0_2.rect t)).set ↔ _
  rw [View.set_slice_whole, Rect.mem_set_unit]
  exact Iff.rfl

/-- Every entry `(b, n)` of the result is written back by some step: step `n / 2048`. -/
theorem covered (i : S256x65536.Idx) :
    ∃ t : Fin cfg0.N, (cfg0.win 2).flush t = true ∧ i ∈ ((cfg0.win 2).blk t).view.set := by
  have hi0 : (i 0).val < 256 := (i 0).isLt
  have hi1 : (i 1).val < 65536 := (i 1).isLt
  have hN : cfg0.N = 32 := N_0
  obtain ⟨t, htv⟩ : ∃ t : Fin cfg0.N, t.val = (i 1).val / 2048 := ⟨⟨(i 1).val / 2048, by omega⟩, rfl⟩
  obtain ⟨e00, e01, e10, e11, e20, e21⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- The result array after the grid is `rowDots` of the two argument matrices. -/
theorem final (c : Dev nD) :
    (dats m 0 c).arrAt 2 cfg0.N = rowDots (m ((c : Thread nD τ).loc main_arg0)) (m ((c : Thread nD τ).loc main_arg1)) :=
  (dats m 0 c).arrAt_eq_of_cover 2 (rowDots (m ((c : Thread nD τ).loc main_arg0)) (m ((c : Thread nD τ).loc main_arg1)))
    (fun t _ => flushed_eq m c t) covered

/-- Every weakly fair execution of the kernel terminates with the result at `rowDots` of the arguments and the
    arguments unchanged. -/
theorem run : θ_run defs (onTc (τ := τ) (main (F := Ideal))) ⟨m, fun _ => 0, ρ⟩ fun r => ∀ c : Dev nD,
      r.2.mem ((c : Thread nD τ).loc main_v1) = rowDots (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefRowDots.lean ====
/-
  The reference computes the matrix of inner products.

  Its one operation contracts the row length of the two argument matrices. Read at an entry `(b, n)`
  of the result it is `Σ_k l[b, k] · r[n, k]` (the generated reading of the operation at an index); the
  index functions that reading uses are the pairs `(b, k)` and `(n, k)`, so the whole result is
  `rowDots l r`.
-/
import proofs.«427703_j63745904607634_3_alg».proof.Proof.Gen.ReferenceIdeal.Read
import proofs.«427703_j63745904607634_3_alg».proof.Proof.RowDots

noncomputable section

namespace Cert.ReferenceIdeal.RefRowDots

open Cert.ReferenceIdeal Cert.ReferenceIdeal.Gen Cert.ReferenceIdeal.Read Idealize.ShloMosaic Idealize.ShloMosaic.ValueIdx
open Cert.RowDots

/-- The left operand is read at `(b, k)`. -/
theorem lidx_eq (i : S256x65536.Idx) (k : Fin 2048) : lidx_main_v0 i k = ix2 (i 0) k :=
  funext fun a => by match a with | ⟨0, _⟩ => rfl | ⟨1, _⟩ => rfl

/-- The right operand is read at `(n, k)`. -/
theorem ridx_eq (i : S256x65536.Idx) (k : Fin 2048) : ridx_main_v0 i k = ix2 (i 1) k :=
  funext fun a => by match a with | ⟨0, _⟩ => rfl | ⟨1, _⟩ => rfl

/-- The reference's result, as a whole array, is the matrix of inner products of its two argument matrices. -/
theorem result_eq (l : FVec Ideal S256x2048 .f32) (r : FVec Ideal S65536x2048 .f32) :
    Host.dotGeneral (F := Ideal) dot_S256x2048_S65536x2048_S256x65536_1_1_0_0_n_n none l r = rowDots l r := by
  rw [val_main_v0_eq]
  funext i
  rw [val_main_v0_apply]
  simp only [lidx_eq, ridx_eq]
  rfl

end Cert.ReferenceIdeal.RefRowDots

end
-- ==== Proof.lean ====
/-
  The certificate: a similarity matrix computed block by block equals the one computed at once.

  Both programs take a left matrix `x` of 256 rows and a right matrix `f` of 65536 rows, every row of
  length 2048 (and two integer arrays that neither reads), and return the 256 × 65536 matrix whose
  entry `(b, n)` is the inner product `Σ_k x[b, k] · f[n, k]` of row `b` of `x` with row `n` of `f`
  (`Cert.RowDots.rowDots`).

  * The reference does it in one contraction of the row length (`RefRowDots.result_eq`).
  * The kernel first narrows `x` to a shorter float format, the identity on ideal values, then runs a
    grid of 32 steps; step `t` multiplies all of the narrowed `x` with rows `2048·t … 2048·t + 2047` of
    `f` into a zero accumulator and writes columns `2048·t … 2048·t + 2047` of the result
    (`BlockProduct.pay_apply`, `Whole.flushed_eq`); the 32 column blocks cover the result (`Whole.covered`),
    so the result array ends holding `rowDots x f` (`Whole.run`).

  Each entry is a finite sum of products of extended reals written the same way on both sides, so the
  equality needs no finiteness of the inputs. The idealization rewrote nothing in the kernel, so the
  claim relating the kernel to its idealization has nothing to state; the three programs' runs
  terminate without fault and leave their arguments unchanged by the generated frame and run theorems.
-/
import proofs.«427703_j63745904607634_3_alg».proof.Defs
import proofs.«427703_j63745904607634_3_alg».proof.Proof.Gen.Kernel
import proofs.«427703_j63745904607634_3_alg».proof.Proof.Gen.Kernel.Skeleton
import proofs.«427703_j63745904607634_3_alg».proof.Proof.Gen.Kernel.Launch
import proofs.«427703_j63745904607634_3_alg».proof.Proof.Gen.Kernel.Points
import proofs.«427703_j63745904607634_3_alg».proof.Proof.Gen.Kernel.Frame
import proofs.«427703_j63745904607634_3_alg».proof.Proof.Gen.KernelIdeal
import proofs.«427703_j63745904607634_3_alg».proof.Proof.Gen.KernelIdeal.Skeleton
import proofs.«427703_j63745904607634_3_alg».proof.Proof.Gen.KernelIdeal.Launch
import proofs.«427703_j63745904607634_3_alg».proof.Proof.Gen.KernelIdeal.Points
import proofs.«427703_j63745904607634_3_alg».proof.Proof.Gen.KernelIdeal.Frame
import proofs.«427703_j63745904607634_3_alg».proof.Proof.Gen.ReferenceIdeal
import proofs.«427703_j63745904607634_3_alg».proof.Proof.Gen.Pre_finite_inputs
import proofs.«427703_j63745904607634_3_alg».proof.Proof.Gen.KernelIdeal.Value
import proofs.«427703_j63745904607634_3_alg».proof.Proof.Gen.ReferenceIdeal.Run
import proofs.«427703_j63745904607634_3_alg».proof.Proof.Gen.ReferenceIdeal.Read
import proofs.«427703_j63745904607634_3_alg».proof.Proof.RowDots
import proofs.«427703_j63745904607634_3_alg».proof.Proof.BlockProduct
import proofs.«427703_j63745904607634_3_alg».proof.Proof.Whole
import proofs.«427703_j63745904607634_3_alg».proof.Proof.RefRowDots
import Idealize.ShloMosaic.Adequacy
import Idealize.ShloMosaic.Init

noncomputable section

namespace Cert.Proof

open Idealize.ShloMosaic Idealize.ShloMosaic.TcCoe Idealize.SL.Sem Cert.RowDots

/-- The word-level kernel terminates without fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to state. -/
theorem preserves : Cert.preserves_Kernel_KernelIdeal := trivial

/-- From memories that agree on the arguments, both programs end with the result at `rowDots` of the left and
    right argument matrices: the kernel block of columns by block of columns, the reference in one contraction. -/
theorem algebraic : Cert.algebraic_KernelIdeal_ReferenceIdeal := by
  intro m ρ m' ρ' _ hagree
  refine ⟨fun c => rowDots (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.RefRowDots.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
